-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x2048x64 : Shape := ⟨3, ![1, 2048, 64]⟩
abbrev S2048x64 : Shape := ⟨2, ![2048, 64]⟩
abbrev S1x512x64 : Shape := ⟨3, ![1, 512, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  inb_S1x2048x64_S1x512x64_0_512_0 : ∀ a, (![0, 512, 0] : Fin 3 → Nat) a + S1x512x64.size a ≤ S1x2048x64.size a
  inb_S1x2048x64_S1x512x64_0_1024_0 : ∀ a, (![0, 1024, 0] : Fin 3 → Nat) a + S1x512x64.size a ≤ S1x2048x64.size a
  inb_S1x2048x64_S1x512x64_0_1536_0 : ∀ a, (![0, 1536, 0] : Fin 3 → Nat) a + S1x512x64.size a ≤ S1x2048x64.size a
  shapeCasts_S32x2048x64_S2x16x2048x64 : S32x2048x64.ShapeCasts S2x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S32x2048x64.size a
  hwx0_3 : ∀ i : grid0.Coords, EltTy.bits .f32 = 32 ∨ (Rect.block (s := S32x2048x64) S1x2048x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KMatmul.lean ====
/-
  The kernel's two matrix products, read at an index, at the ideal values.

  Per chunk of 512 query rows the body multiplies twice on the matrix unit, each time into a zero accumulator:
  the scores  S = A · Bᵀ  (A : 512 × 64 scaled queries, B : 2048 × 64 keys, both contracted on their feature axis), and
  the weighted values  O = P · B  (P : 512 × 2048 weights, B : 2048 × 64 values, the keys' axis contracted).
  At the ideal values a product into a zero accumulator is the plain sum over the contracted coordinate; the lemmas
  below name, axis by axis, which entries of the two operands that sum reads.
-/
import proofs.«430038_j22479858827414_3_alg».proof.Proof.Gen.KernelIdeal
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx

/-! ## Scores: output (r, j) reads query row r and key row j -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score of query row `r` against key row `j` is the sum over the 64 features of the two rows' products. -/
theorem scores_apply (A : FVec Ideal S512x64 .bf16) (B : FVec Ideal S2048x64 .bf16) (r : Fin 512) (j : Fin 2048) :
    matmul dot_S512x64_S2048x64_S512x2048_1_1_0_0_n_n none A B (constant S512x2048 .f32 0x00000000#32) (ix2 r j)
      = ∑ e : Fin 64, A (ix2 r e) * B (ix2 j e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  have el : dot_S512x64_S2048x64_S512x2048_1_1_0_0_n_n.lhsIdx (ix2 r j) ((contrEquiv1 dot_S512x64_S2048x64_S512x2048_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r j) ((contrEquiv1 dot_S512x64_S2048x64_S512x2048_1_1_0_0_n_n 64 rfl rfl).symm e) = ix2 j e := funext fun a => Fin.ext (by
    match a with
    | ⟨0, _⟩ => exact rhs_qk_0 _ _
    | ⟨1, _⟩ => exact (rhs_qk_1 _ _).trans hk)
  rw [el, er]

/-! ## Weighted values: output (r, d) reads weight row r and value column d -/

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Output (r, d) of the second product is the sum over the 2048 keys of weight (r, j) times value (j, d). -/
theorem weighted_apply (P : FVec Ideal S512x2048 .bf16) (B : FVec Ideal S2048x64 .bf16) (r : Fin 512) (d : Fin 64) :
    matmul dot_S512x2048_S2048x64_S512x64_1_0_0_1_n_n none P B (constant S512x64 .f32 0x00000000#32) (ix2 r d)
      = ∑ j : Fin 2048, P (ix2 r j) * B (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun j _ => ?_
  have hk := contrEquiv1_symm_val dot_S512x2048_S2048x64_S512x64_1_0_0_1_n_n 2048 rfl rfl j
  have el : dot_S512x2048_S2048x64_S512x64_1_0_0_1_n_n.lhsIdx (ix2 r d) ((contrEquiv1 dot_S512x2048_S2048x64_S512x64_1_0_0_1_n_n 2048 rfl rfl).symm j) = ix2 r j := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((contrEquiv1 dot_S512x2048_S2048x64_S512x64_1_0_0_1_n_n 2048 rfl rfl).symm j) = ix2 j d := funext fun a => Fin.ext (by
    match a with
    | ⟨0, _⟩ => exact (rhs_pv_0 _ _).trans hk
    | ⟨1, _⟩ => exact rhs_pv_1 _ _)
  rw [el, er]

end Cert.KernelIdeal.KValue

end
-- ==== Proof.Spec.lean ====
/-
  The mathematics both programs compute, stated once, with no program in sight.

  One output element of scaled dot-product attention depends on ONE query row `q : Fin 64 → EReal`, the whole
  key matrix `k : Fin 2048 → Fin 64 → EReal` of its (batch, head), and ONE column `v : Fin 2048 → EReal` of the value
  matrix. Two spellings of that element are defined here, each exactly as one of the two programs arranges it on
  the extended reals:

  * `rowK` — the scale 1/8 folded into the query BEFORE the contraction (`scoreK`), the row's maximum taken from −∞,
    the unnormalised weights `exp (s − max)` contracted with the value column FIRST and the quotient by their sum
    taken LAST;
  * `rowR` — the contraction first and the scale `1 / √64` applied to the score (`scoreR`), the maximum joined once
    more with −∞, each weight divided by `0 + Σ` of the weights FIRST and the normalised weights contracted with the
    value column LAST.

  `GK` and `GR` are the two as whole-array functions of the three [2, 16, 2048, 64] arguments: element
  (b, h, r, d) reads query row (b, h, r, ·), the keys (b, h, ·, ·) and value column (b, h, ·, d).
-/
import Idealize.ShloMosaic.PureOps.Ideal
import Idealize.ShloMosaic.Lib.ValueIdx

noncomputable section

namespace Cert.Attn

open Idealize.ShloMosaic Idealize.ShloMosaic.ValueIdx

/-- The four float patterns the two programs spell: 1/8, −∞, 1 and 64 (and +0 below, as `Ideal.ofBits .f32 0`). -/
abbrev eighth : EReal := Ideal.ofBits .f32 0x3E000000#32
abbrev negInf : EReal := Ideal.ofBits .f32 0xFF800000#32
abbrev posZero : EReal := Ideal.ofBits .f32 0x00000000#32
/-- The reference's scale, as it computes it: one over the square root of sixty-four. -/
abbrev invSqrt64 : EReal := Ideal.div (Ideal.ofBits .f32 0x3F800000#32) (Ideal.sqrt (Ideal.ofBits .f32 0x42800000#32))

/-- The kernel's score of a query row against a key row: the query scaled entry by entry, then contracted. -/
def scoreK (q k : Fin 64 → EReal) : EReal := ∑ e : Fin 64, (q e * eighth) * k e

/-- The reference's score: contracted, then scaled. -/
def scoreR (q k : Fin 64 → EReal) : EReal := (∑ e : Fin 64, q e * k e) * invSqrt64

/-- The kernel's row maximum: the fold of `max` from −∞ over the 2048 scores. -/
def maxK (q : Fin 64 → EReal) (k : Fin 2048 → Fin 64 → EReal) : EReal :=
  (Finset.univ : Finset (Fin 2048)).fold max negInf (fun j => scoreK q (k j))

/-- The reference's row maximum: the same fold, joined once more with −∞. -/
def maxR (q : Fin 64 → EReal) (k : Fin 2048 → Fin 64 → EReal) : EReal :=
  max negInf ((Finset.univ : Finset (Fin 2048)).fold max negInf (fun j => scoreR q (k j)))

/-- The kernel's output element: (Σⱼ exp(sⱼ − m) · vⱼ) / (Σⱼ exp(sⱼ − m)). -/
def rowK (q : Fin 64 → EReal) (k : Fin 2048 → Fin 64 → EReal) (v : Fin 2048 → EReal) : EReal :=
  Ideal.div (∑ j : Fin 2048, Ideal.exp (scoreK q (k j) - maxK q k) * v j)
    (∑ j : Fin 2048, Ideal.exp (scoreK q (k j) - maxK q k))

/-- The reference's output element: Σⱼ (exp(sⱼ − m) / (0 + Σᵢ exp(sᵢ − m))) · vⱼ. -/
def rowR (q : Fin 64 → EReal) (k : Fin 2048 → Fin 64 → EReal) (v : Fin 2048 → EReal) : EReal :=
  ∑ j : Fin 2048, Ideal.div (Ideal.exp (scoreR q (k j) - maxR q k))
    (posZero + ∑ i : Fin 2048, Ideal.exp (scoreR q (k i) - maxR q k)) * v j

abbrev S4 : Shape := ⟨4, ![2, 16, 2048, 64]⟩

/-- The query row, the keys and the value column that output element `i` = (b, h, r, d) reads. -/
abbrev qRow (x0 : S4.Idx → EReal) (i : S4.Idx) : Fin 64 → EReal := fun e => x0 (ix4 (i 0) (i 1) (i 2) e)
abbrev kMat (x1 : S4.Idx → EReal) (i : S4.Idx) : Fin 2048 → Fin 64 → EReal := fun j e => x1 (ix4 (i 0) (i 1) j e)
abbrev vCol (x2 : S4.Idx → EReal) (i : S4.Idx) : Fin 2048 → EReal := fun j => x2 (ix4 (i 0) (i 1) j (i 3))

/-- The kernel's arrangement as one function of the three argument arrays. -/
def GK (x0 x1 x2 : S4.Idx → EReal) : S4.Idx → EReal := fun i => rowK (qRow x0 i) (kMat x1 i) (vCol x2 i)

/-- The reference's arrangement as one function of the three argument arrays. -/
def GR (x0 x1 x2 : S4.Idx → EReal) : S4.Idx → EReal := fun i => rowR (qRow x0 i) (kMat x1 i) (vCol x2 i)

end Cert.Attn

end
-- ==== Proof.KReduce.lean ====
/-
  The kernel's row reductions and its keep-dims broadcasts, read at an index, at the ideal values.

  Per chunk the body reduces the 512 × 2048 score matrix along its rows twice — the maximum from −∞, and the sum from 0
  of the exponentials — and carries each 512-vector back to matrix shape through a column: [512] → [512, 1] → [512, n].
  The maximum of row r is the fold of `max` from −∞ over the row's 2048 entries, the sum the plain finite sum, and
  the column broadcast reads the vector's entry r at every (r, j).
-/
import proofs.«430038_j22479858827414_3_alg».proof.Proof.Gen.KernelIdeal
import proofs.«430038_j22479858827414_3_alg».proof.Proof.Spec
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx Cert.Attn

/-- Row r's maximum: the fold of `max` from −∞ over the row. -/
theorem rowMax_apply (X : FVec Ideal S512x2048 .f32) (r : Fin 512) :
    multiReduction .maximumf [1] S512 X 0xFF800000#32 reduces_S512x2048_S512 (.inl rfl) rfl (ix1 r)
      = (Finset.univ : Finset (Fin 2048)).fold max negInf (fun j => X (ix2 r j)) := by
  refine (Ideal.multiReduction_maximumf_single X 0xFF800000#32 reduces_S512x2048_S512 (.inl rfl) rfl (ix1 r)).trans ?_
  have e : (X ∘ (reduces_S512x2048_S512).lift (ix1 r)) = fun j : Fin 2048 => X (ix2 r j) :=
    funext fun j => congrArg X (funext fun a => Fin.ext (by match a with | ⟨0, _⟩ => rfl | ⟨1, _⟩ => rfl))
  exact congrArg (fun f => (Finset.univ : Finset (Fin 2048)).fold max negInf f) e

/-- Row r's sum: the finite sum over the row. -/
theorem rowSum_apply (X : FVec Ideal S512x2048 .f32) (r : Fin 512) :
    multiReduction .add [1] S512 X 0x00000000#32 reduces_S512x2048_S512 (.inl rfl) rfl (ix1 r)
      = ∑ j : Fin 2048, X (ix2 r j) := by
  refine (Ideal.multiReduction_add_single X 0x00000000#32 reduces_S512x2048_S512 (.inl rfl) rfl (ix1 r)).trans ?_
  exact Finset.sum_congr rfl fun j _ =>
    congrArg X (funext fun a => Fin.ext (by match a with | ⟨0, _⟩ => rfl | ⟨1, _⟩ => rfl))

/-- A 512-vector as a column: entry (r, 0) is entry r. -/
theorem column_apply (y : FVec Ideal S512 .f32) (r : Fin 512) (z : Fin 1) :
    shapeCast S512x1 y shapeCasts_S512_S512x1 (ix2 r z) = y (ix1 r) :=
  shapeCast_apply y shapeCasts_S512_S512x1 _ _ (by
    have hz : z.val = 0 := by omega
    rw [Shape.rowMajor_val_one, Shape.rowMajor_val_two]
    show r.val = r.val * 1 + z.val
    omega)

/-- The column broadcast along the 2048 keys: entry (r, j) is the column's entry (r, 0). -/
theorem bcastKeys_apply (x : FVec Ideal S512x1 .f32) (r : Fin 512) (j : Fin 2048) :
    broadcastTo S512x2048 x broadcasts_S512x1_S512x2048 (ix2 r j) = x (ix2 r 0) :=
  broadcastTo_apply x broadcasts_S512x1_S512x2048 _ _ fun a => by
    match a with
    | ⟨0, _⟩ => show r.val = if (512 : Nat) = 1 then 0 else r.val; rw [if_neg (by decide)]
    | ⟨1, _⟩ => show 0 = if (1 : Nat) = 1 then 0 else j.val; rw [if_pos rfl]

/-- The column broadcast along the 64 features: entry (r, d) is the column's entry (r, 0). -/
theorem bcastFeat_apply (x : FVec Ideal S512x1 .f32) (r : Fin 512) (d : Fin 64) :
    broadcastTo S512x64 x broadcasts_S512x1_S512x64 (ix2 r d) = x (ix2 r 0) :=
  broadcastTo_apply x broadcasts_S512x1_S512x64 _ _ fun a => by
    match a with
    | ⟨0, _⟩ => show r.val = if (512 : Nat) = 1 then 0 else r.val; rw [if_neg (by decide)]
    | ⟨1, _⟩ => show 0 = if (1 : Nat) = 1 then 0 else d.val; rw [if_pos rfl]

end Cert.KernelIdeal.KValue

end
-- ==== Proof.KChunk.lean ====
/-
  What the kernel body stores for one chunk of 512 query rows, read at an index, at the ideal values.

  The body handles the 2048 query rows of a (batch, head) in four chunks of 512. For a chunk with query block Q
  (1 × 512 × 64) against the whole key block K and value block V (1 × 2048 × 64 each) it forms the score matrix
  S(r, j) = Σₑ (Q(r, e) · 1/8) · K(j, e), the weights W(r, j) = exp (S(r, j) − maxⱼ S(r, j)), and stores
  (Σⱼ W(r, j) · V(j, d)) / (Σⱼ W(r, j)) at (r, d). The format changes to and from bf16 around the two products are the
  identity on the extended reals. The printed body spells the four chunks with its intermediate values cut at
  different places; all four are one function of (K, V, Q), and at an index that function is the specification's
  `rowK` of query row r, the keys and value column d.
-/
import proofs.«430038_j22479858827414_3_alg».proof.Proof.Gen.KernelIdeal.Skeleton
import proofs.«430038_j22479858827414_3_alg».proof.Proof.KMatmul
import proofs.«430038_j22479858827414_3_alg».proof.Proof.KReduce
import proofs.«430038_j22479858827414_3_alg».proof.Proof.Spec
import Idealize.ShloMosaic.Lib.ValueLayout

noncomputable section

namespace Cert.KernelIdeal.KValue

open Cert.KernelIdeal Cert.KernelIdeal.Gen Idealize.ShloMosaic Idealize.ShloMosaic.ValueIdx Cert.Attn

/-! ## The operands of the two products -/

/-- The key (or value) block as a matrix: entry (j, e) of the cast block is entry (0, j, e). -/
theorem keys_apply (K : Vec Ideal S1x2048x64 .f32) (j : Fin 2048) (e : Fin 64) :
    k0_pay2 (F := Ideal) K (ix2 j e) = K (ix3 0 j e) := by
  unfold k0_pay2
  exact shapeCast_1ab_ab_apply K shapeCasts_S1x2048x64_S2048x64 j e

theorem values_apply (V : Vec Ideal S1x2048x64 .f32) (j : Fin 2048) (d : Fin 64) :
    k0_pay3 (F := Ideal) V (ix2 j d) = V (ix3 0 j d) := by
  unfold k0_pay3
  exact shapeCast_1ab_ab_apply V shapeCasts_S1x2048x64_S2048x64 j d

/-- The score matrix of a chunk: entry (r, j) is the kernel's score of query row r against key row j. -/
theorem scores_eq (K : Vec Ideal S1x2048x64 .f32) (Q : Vec Ideal S1x512x64 .f32) (r : Fin 512) (j : Fin 2048) :
    k0_pay9 (F := Ideal) (k0_pay2 K) Q (ix2 r j) = scoreK (fun e => Q (ix3 0 r e)) (fun e => K (ix3 0 j e)) := by
  unfold k0_pay9
  refine (scores_apply _ _ r j).trans ?_
  unfold scoreK
  refine Finset.sum_congr rfl fun e _ => ?_
  rw [keys_apply]
  refine congrArg (· * K (ix3 0 j e)) ?_
  show shapeCast S512x64 Q shapeCasts_S1x512x64_S512x64 (ix2 r e) * eighth = _
  rw [shapeCast_1ab_ab_apply]

/-! ## From a score matrix to the stored chunk -/

/-- The weights: the exponential of each score less its row's maximum. -/
def weights (s : FVec Ideal S512x2048 .f32) : FVec Ideal S512x2048 .f32 :=
  exp (subf s (broadcastTo S512x2048 (shapeCast S512x1 (multiReduction .maximumf [1] S512 s 0xFF800000#32
    reduces_S512x2048_S512 (.inl rfl) rfl) shapeCasts_S512_S512x1) broadcasts_S512x1_S512x2048))

theorem weights_apply (s : FVec Ideal S512x2048 .f32) (r : Fin 512) (j : Fin 2048) :
    weights s (ix2 r j)
      = Ideal.exp (s (ix2 r j) - (Finset.univ : Finset (Fin 2048)).fold max negInf (fun i => s (ix2 r i))) :=
  congrArg (fun m => Ideal.exp (s (ix2 r j) - m))
    ((bcastKeys_apply _ r j).trans ((column_apply _ r 0).trans (rowMax_apply s r)))

/-- The row sums of the weights, carried to the 512 × 64 output's shape. -/
theorem norm_apply (w : FVec Ideal S512x2048 .f32) (r : Fin 512) (d : Fin 64) :
    broadcastTo S512x64 (shapeCast S512x1 (multiReduction .add [1] S512 w 0x00000000#32
      reduces_S512x2048_S512 (.inl rfl) rfl) shapeCasts_S512_S512x1) broadcasts_S512x1_S512x64 (ix2 r d)
      = ∑ j : Fin 2048, w (ix2 r j) :=
  (bcastFeat_apply _ r d).trans ((column_apply _ r 0).trans (rowSum_apply w r))

/-- The stored chunk, from its score matrix `s` and the value matrix `vb`: at (r, d) the weighted sum of value column
    d over the row's weights, divided by the weights' sum. -/
theorem soft_apply (vb : FVec Ideal S2048x64 .bf16) (s : FVec Ideal S512x2048 .f32) (u : Fin 1) (r : Fin 512) (d : Fin 64) :
    k0_pay1 (F := Ideal) vb s (ix3 u r d)
      = Ideal.div (∑ j : Fin 2048, weights s (ix2 r j) * vb (ix2 j d)) (∑ j : Fin 2048, weights s (ix2 r j)) := by
  unfold k0_pay1
  refine (shapeCast_ab_1ab_apply _ shapeCasts_S512x64_S1x512x64 u r d).trans ?_
  refine (divf_apply _ _ _).trans ?_
  exact congrArg₂ Ideal.div (weighted_apply (truncf .bf16 (weights s) bitsLt_bf16_f32) vb r d) (norm_apply (weights s) r d)

/-! ## The four chunks are one function -/

/-- The chunk as the last store spells it: the score matrix first, then the rest. -/
def chunk {F : FTy → Type} [FloatOps F] (K V : Vec F S1x2048x64 .f32) (Q : Vec F S1x512x64 .f32) : FVec F S1x512x64 .f32 :=
  k0_pay1 (k0_pay3 V) (k0_pay9 (k0_pay2 K) Q)

theorem chunk_first {F : FTy → Type} [FloatOps F] (K V : Vec F S1x2048x64 .f32) (Q : Vec F S1x512x64 .f32) :
    k0_pay4 K V Q = chunk K V Q := rfl
theorem chunk_second {F : FTy → Type} [FloatOps F] (K V : Vec F S1x2048x64 .f32) (Q : Vec F S1x512x64 .f32) :
    k0_pay7 (k0_pay3 V) (k0_pay5 K Q) (k0_pay6 K Q) = chunk K V Q := rfl
theorem chunk_third {F : FTy → Type} [FloatOps F] (K V : Vec F S1x2048x64 .f32) (Q : Vec F S1x512x64 .f32) :
    k0_pay8 (k0_pay2 K) (k0_pay3 V) Q = chunk K V Q := rfl

/-- THE CHUNK AT AN INDEX: entry (·, r, d) is `rowK` of the chunk's query row r, the key block and value column d. -/
theorem chunk_apply (K V : Vec Ideal S1x2048x64 .f32) (Q : Vec Ideal S1x512x64 .f32) (u : Fin 1) (r : Fin 512) (d : Fin 64) :
    chunk (F := Ideal) K V Q (ix3 u r d)
      = rowK (fun e => Q (ix3 0 r e)) (fun j e => K (ix3 0 j e)) (fun j => V (ix3 0 j d)) := by
  unfold chunk
  rw [soft_apply]
  simp only [weights_apply, scores_eq, values_apply]
  rfl

end Cert.KernelIdeal.KValue

end
-- ==== Proof.KBlock.lean ====
/-
  What the kernel body leaves in the output's staging buffer at one grid point, as ONE function of the three input blocks.

  A grid point is one (batch, head): the body finds the 1 × 2048 × 64 blocks of queries, keys and values and fills the
  1 × 2048 × 64 output block by four stores of 512 rows each, at row offsets 0, 512, 1024 and 1536. The piece stored at
  offset o is the chunk function of the key block, the value block and rows o … o + 511 of the query block, so its
  entry (r, d) is the attention row of query row o + r: every piece is the restriction to its rectangle of one function
  of the block index, `blockFn`, and the four rectangles tile the block.
-/
import proofs.«430038_j22479858827414_3_alg».proof.Proof.Gen.KernelIdeal.Frame
import proofs.«430038_j22479858827414_3_alg».proof.Proof.KChunk

noncomputable section

namespace Cert.KernelIdeal.KValue

open Cert.KernelIdeal Cert.KernelIdeal.Gen Idealize.ShloMosaic Idealize.ShloMosaic.ValueIdx Cert.Attn

/-- Entry (·, r, d) of the output block: the attention row of query row r, all the keys, value column d. -/
def blockFn (x0 x1 x2 : Vec Ideal S1x2048x64 .f32) : S1x2048x64.Idx → EReal := fun y =>
  rowK (fun e => x0 (ix3 0 (y 1) e)) (fun j e => x1 (ix3 0 j e)) (fun j => x2 (ix3 0 j (y 2)))

theorem zeroOffsets : (![0, 0, 0] : Fin 3 → Nat) = fun _ => 0 := funext fun a => by fin_cases a <;> rfl

/-- The piece stored at row offset `o` is `blockFn` on its rectangle: local row r is block row o + r. -/
theorem piece_apply (o : Nat) (inb : ∀ a, (![0, o, 0] : Fin 3 → Nat) a + S1x512x64.size a ≤ S1x2048x64.size a)
    (x0 x1 x2 : Vec Ideal S1x2048x64 .f32) (x : S1x512x64.Idx) :
    chunk (F := Ideal) x1 x2 (View.ld x0 (Rect.unit (s := S1x2048x64) ![0, o, 0] S1x512x64.size inb)) x
      = blockFn x0 x1 x2 ((Rect.unit (s := S1x2048x64) ![0, o, 0] S1x512x64.size inb).emb x) := by
  obtain ⟨u, r, d, rfl⟩ : ∃ (u : Fin 1) (r : Fin 512) (d : Fin 64), x = ix3 u r d := ⟨x 0, x 1, x 2, eq_ix3 x⟩
  rw [chunk_apply]
  unfold blockFn
  have hq : ∀ e : Fin 64, View.ld x0 (Rect.unit (s := S1x2048x64) ![0, o, 0] S1x512x64.size inb) (ix3 0 r e)
      = x0 (ix3 0 (((Rect.unit (s := S1x2048x64) ![0, o, 0] S1x512x64.size inb).emb (ix3 u r d)) 1) e) := fun e =>
    congrArg x0 (funext fun a => Fin.ext (by
      match a with
      | ⟨0, _⟩ => rfl
      | ⟨1, _⟩ => rfl
      | ⟨2, _⟩ => show 0 + 1 * e.val = e.val; omega))
  have hd : ((Rect.unit (s := S1x2048x64) ![0, o, 0] S1x512x64.size inb).emb (ix3 u r d)) 2 = d := Fin.ext (show 0 + 1 * d.val = d.val by omega)
  simp only [hq, hd]

/-- THE BLOCK: the canonical contents after the four stores are `blockFn` of the three input blocks. -/
theorem out_apply (x0 x1 x2 : Vec Ideal S1x2048x64 .f32) (y : S1x2048x64.Idx) :
    out0_3 (F := Ideal) x0 x1 x2 y = blockFn x0 x1 x2 y := by
  unfold out0_3
  simp only [View.ld_unit_zero (S := S1x2048x64) zeroOffsets]
  refine View.canon_apply_of_pieces (Val := Elt Ideal) (blockFn x0 x1 x2) _ ?_ y (cover0_3 _ _ _ _ y)
  intro p hp x
  simp only [List.mem_cons, List.mem_nil_iff, or_false] at hp
  rcases hp with rfl | rfl | rfl | rfl
  · exact piece_apply 1536 inb_S1x2048x64_S1x512x64_0_1536_0 x0 x1 x2 x
  · exact (congrFun (chunk_third x1 x2 _) x).trans (piece_apply 1024 inb_S1x2048x64_S1x512x64_0_1024_0 x0 x1 x2 x)
  · exact (congrFun (chunk_second x1 x2 _) x).trans (piece_apply 512 inb_S1x2048x64_S1x512x64_0_512_0 x0 x1 x2 x)
  · exact (congrFun (chunk_first x1 x2 _) x).trans (piece_apply 0 inb_S1x2048x64_S1x512x64_0_0_0 x0 x1 x2 x)

end Cert.KernelIdeal.KValue

end
-- ==== Proof.KArray.lean ====
/-
  From the blocks to the array, and from the array to the program's result.

  The grid has 32 points, one per (batch, head) pair; at point t every window's block is slab t of its
  [32, 2048, 64] array (block index (t, 0, 0), block extents (1, 2048, 64)). So what point t writes back is slab t of ONE
  whole-array function `G3` of the three input arrays — entry (t, r, d) the attention row of query row (t, r), keys
  (t, ·, ·) and value column (t, ·, d) — the 32 slabs cover the array, and the output array ends holding `G3`.
  Around the region the program only reshapes: each argument [2, 16, 2048, 64] → [32, 2048, 64] before it, the
  result back after it. A reshape keeps the row-major position, which pairs (b, h) with slab 16·b + h, so the
  program's result is the specification's `GK` of the arguments.
-/
import proofs.«430038_j22479858827414_3_alg».proof.Proof.Gen.KernelIdeal.Frame
import proofs.«430038_j22479858827414_3_alg».proof.Proof.KBlock
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.ShloMosaic.ValueIdx Cert.Attn
open Idealize.SL.Sem Idealize.ShloMosaic.StableHlo
open Idealize.ShloMosaic.Pipeline (Dat)

variable (m : (ℓ : Loc nD τ sig) → Buf (Elt Ideal) ℓ) (ρ : Dev nD → PrngReg)

/-- The output array as one function of the three [32, 2048, 64] input arrays. -/
def G3 (a0 a1 a2 : S32x2048x64.Idx → EReal) : S32x2048x64.Idx → EReal := fun i =>
  rowK (fun e => a0 (ix3 (i 0) (i 1) e)) (fun j e => a1 (ix3 (i 0) j e)) (fun j => a2 (ix3 (i 0) j (i 2)))

/-- Every window's block index at point `t` is (t, 0, 0): decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The grid point as a slab number. -/
def slab (t : Fin cfg0.N) : Fin 32 := ⟨t.val, by have h : t.val < grid0.N := t.isLt; rw [N_0] at h; exact h⟩

/-- Window 0's block at point `t` is slab `t` of its array. -/
theorem blk_read0 (c : Dev nD) (t : Fin cfg0.N) (y : S1x2048x64.Idx) :
    iblk m c 0 t y = V m c main_v0 (ix3 (slab t) (y 1) (y 2)) := by
  show V m c main_v0 (((cfg0.win 0).blk t).view.emb y) = V m c main_v0 (ix3 (slab t) (y 1) (y 2))
  refine congrArg (V m c main_v0) (funext fun a => Fin.ext ?_)
  obtain ⟨a0, a1, a2, b0, b1, b2, c0, c1, c2, d0, d1, d2⟩ := idx_facts t
  have hy : (y 0).val < 1 := (y 0).isLt
  match a with
  | ⟨0, _⟩ => show win0_0.index t (0 : Fin 3) * 1 + 1 * (y 0).val = t.val; omega
  | ⟨1, _⟩ => show win0_0.index t (1 : Fin 3) * 2048 + 1 * (y 1).val = (y 1).val; omega
  | ⟨2, _⟩ => show win0_0.index t (2 : Fin 3) * 64 + 1 * (y 2).val = (y 2).val; omega

/-- Window 1's block at point `t` is slab `t` of its array. -/
theorem blk_read1 (c : Dev nD) (t : Fin cfg0.N) (y : S1x2048x64.Idx) :
    iblk m c 1 t y = V m c main_v1 (ix3 (slab t) (y 1) (y 2)) := by
  show V m c main_v1 (((cfg0.win 1).blk t).view.emb y) = V m c main_v1 (ix3 (slab t) (y 1) (y 2))
  refine congrArg (V m c main_v1) (funext fun a => Fin.ext ?_)
  obtain ⟨a0, a1, a2, b0, b1, b2, c0, c1, c2, d0, d1, d2⟩ := idx_facts t
  have hy : (y 0).val < 1 := (y 0).isLt
  match a with
  | ⟨0, _⟩ => show win0_1.index t (0 : Fin 3) * 1 + 1 * (y 0).val = t.val; omega
  | ⟨1, _⟩ => show win0_1.index t (1 : Fin 3) * 2048 + 1 * (y 1).val = (y 1).val; omega
  | ⟨2, _⟩ => show win0_1.index t (2 : Fin 3) * 64 + 1 * (y 2).val = (y 2).val; omega

/-- Window 2's block at point `t` is slab `t` of its array. -/
theorem blk_read2 (c : Dev nD) (t : Fin cfg0.N) (y : S1x2048x64.Idx) :
    iblk m c 2 t y = V m c main_v2 (ix3 (slab t) (y 1) (y 2)) := by
  show V m c main_v2 (((cfg0.win 2).blk t).view.emb y) = V m c main_v2 (ix3 (slab t) (y 1) (y 2))
  refine congrArg (V m c main_v2) (funext fun a => Fin.ext ?_)
  obtain ⟨a0, a1, a2, b0, b1, b2, c0, c1, c2, d0, d1, d2⟩ := idx_facts t
  have hy : (y 0).val < 1 := (y 0).isLt
  match a with
  | ⟨0, _⟩ => show win0_2.index t (0 : Fin 3) * 1 + 1 * (y 0).val = t.val; omega
  | ⟨1, _⟩ => show win0_2.index t (1 : Fin 3) * 2048 + 1 * (y 1).val = (y 1).val; omega
  | ⟨2, _⟩ => show win0_2.index t (2 : Fin 3) * 64 + 1 * (y 2).val = (y 2).val; omega

/-- WHAT POINT `t` WRITES BACK is block `t` of `G3` of the input arrays as the region finds them. -/
theorem flushed_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  funext y
  show out0_3 (iblk m c 0 t) (iblk m c 1 t) (iblk m c 2 t) y
    = G3 (V m c main_v0) (V m c main_v1) (V m c main_v2) (((cfg0.win 3).blk t).view.emb y)
  refine (out_apply (iblk m c 0 t) (iblk m c 1 t) (iblk m c 2 t) y).trans ?_
  unfold blockFn G3
  obtain ⟨a0, a1, a2, b0, b1, b2, c0, c1, c2, d0, d1, d2⟩ := idx_facts t
  have hy : (y 0).val < 1 := (y 0).isLt
  have h0 : (((cfg0.win 3).blk t).view.emb y) 0 = slab t :=
    Fin.ext (show win0_3.index t (0 : Fin 3) * 1 + 1 * (y 0).val = t.val by omega)
  have h1 : (((cfg0.win 3).blk t).view.emb y) 1 = y 1 :=
    Fin.ext (show win0_3.index t (1 : Fin 3) * 2048 + 1 * (y 1).val = (y 1).val by omega)
  have h2 : (((cfg0.win 3).blk t).view.emb y) 2 = y 2 :=
    Fin.ext (show win0_3.index t (2 : Fin 3) * 64 + 1 * (y 2).val = (y 2).val by omega)
  simp only [h0, h1, h2, blk_read0, blk_read1, blk_read2]

/-- An index of the output array is in point `t`'s block iff each coordinate is in the block's range on its axis. -/
theorem mem_blk (t : Fin cfg0.N) (i : S32x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v3).slice (win0_3.rect t)).set ↔ _
  rw [View.set_slice_whole, Rect.mem_set_unit]
  exact Iff.rfl

/-- The 32 slabs cover the output array: index (s, r, d) lies in point s's block. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  have hN : (i 0).val < grid0.N := by rw [N_0]; exact hi0
  refine ⟨⟨(i 0).val, hN⟩, flush0_3 _, ?_⟩
  rw [mem_blk]
  obtain ⟨a0, a1, a2, b0, b1, b2, c0, c1, c2, d0, d1, d2⟩ := idx_facts ⟨(i 0).val, hN⟩
  have d0' : win0_3.index ⟨(i 0).val, hN⟩ (0 : Fin 3) = (i 0).val := d0
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; omega
  | ⟨1, _⟩ => show win0_3.index ⟨(i 0).val, hN⟩ (1 : Fin 3) * 2048 ≤ (i 1).val ∧ (i 1).val < win0_3.index ⟨(i 0).val, hN⟩ (1 : Fin 3) * 2048 + 2048; omega
  | ⟨2, _⟩ => show win0_3.index ⟨(i 0).val, hN⟩ (2 : Fin 3) * 64 ≤ (i 2).val ∧ (i 2).val < win0_3.index ⟨(i 0).val, hN⟩ (2 : Fin 3) * 64 + 64; omega

/-- THE OUTPUT ARRAY after the region: `G3` of the input arrays as the region finds them. -/
theorem final (c : Dev nD) :
    (dats m 0 c).arrAt 3 cfg0.N = G3 (V m c main_v0) (V m c main_v1) (V m c main_v2) :=
  (dats m 0 c).arrAt_eq_of_cover 3 _ (fun t _ => flushed_eq m c t) (cover)

/-! ## The reshapes around the region -/

theorem V_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results; rfl
theorem V_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results; rfl
theorem V_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results; rfl

/-- The program's result buffer after the reshape that follows the region. -/
theorem tail_eq (c : Dev nD) :
    Pipeline.afterTail₀ cfgs (dats m) 0 (V0 m) [hostOps1] c main_v4
      = shapeCast S2x16x2048x64 (G3 (V m c main_v0) (V m c main_v1) (V m c main_v2)) shapeCasts_S32x2048x64_S2x16x2048x64 := by
  unfold Pipeline.afterTail₀
  show StableHlo.after hostOps1 _ (Proc.devRef .tc main_v4) = _
  after_results
  have e := (Pipeline.withArrays_arr (cfgs 0).spec launch0.win.arr_inj c (V0 m c)
    (fun w => (dats m 0 c).arrAt w (cfgs 0).N) 3).trans (final m c)
  exact congrArg (fun A : S32x2048x64.Idx → EReal => shapeCast S2x16x2048x64 A shapeCasts_S32x2048x64_S2x16x2048x64) e

/-- A [2, 16, 2048, 64] array reshaped to [32, 2048, 64]: slab 16·b + h is (b, h). -/
theorem slab_apply (x : Attn.S4.Idx → EReal) (b : Fin 2) (h : Fin 16) (r : Fin 2048) (e : Fin 64) (hs : 16 * b.val + h.val < 32) :
    shapeCast S32x2048x64 x shapeCasts_S2x16x2048x64_S32x2048x64 (ix3 ⟨16 * b.val + h.val, hs⟩ r e) = x (ix4 b h r e) :=
  shapeCast_apply x shapeCasts_S2x16x2048x64_S32x2048x64 _ _ (by
    rw [Shape.rowMajor_val_four, Shape.rowMajor_val_three]
    show ((b.val * 16 + h.val) * 2048 + r.val) * 64 + e.val = ((16 * b.val + h.val) * 2048 + r.val) * 64 + e.val
    omega)

/-- THE RESULT AS A FUNCTION OF THE ARGUMENTS: reshaping in, `G3`, reshaping out is `GK`. -/
theorem reshaped_eq_GK (x0 x1 x2 : Attn.S4.Idx → EReal) :
    shapeCast S2x16x2048x64 (G3 (shapeCast S32x2048x64 x0 shapeCasts_S2x16x2048x64_S32x2048x64)
      (shapeCast S32x2048x64 x1 shapeCasts_S2x16x2048x64_S32x2048x64)
      (shapeCast S32x2048x64 x2 shapeCasts_S2x16x2048x64_S32x2048x64)) shapeCasts_S32x2048x64_S2x16x2048x64
      = GK x0 x1 x2 := by
  funext i
  obtain ⟨b, h, r, d, rfl⟩ : ∃ (b : Fin 2) (h : Fin 16) (r : Fin 2048) (d : Fin 64), i = ix4 b h r d :=
    ⟨i 0, i 1, i 2, i 3, eq_ix4 i⟩
  have hs : 16 * b.val + h.val < 32 := by omega
  refine (shapeCast_apply _ shapeCasts_S32x2048x64_S2x16x2048x64 _ (ix3 ⟨16 * b.val + h.val, hs⟩ r d) (by
    rw [Shape.rowMajor_val_three, Shape.rowMajor_val_four]
    show ((16 * b.val + h.val) * 2048 + r.val) * 64 + d.val = ((b.val * 16 + h.val) * 2048 + r.val) * 64 + d.val
    omega)).trans ?_
  unfold G3 GK
  show rowK (fun e => shapeCast S32x2048x64 x0 shapeCasts_S2x16x2048x64_S32x2048x64 (ix3 ⟨16 * b.val + h.val, hs⟩ r e))
      (fun j e => shapeCast S32x2048x64 x1 shapeCasts_S2x16x2048x64_S32x2048x64 (ix3 ⟨16 * b.val + h.val, hs⟩ j e))
      (fun j => shapeCast S32x2048x64 x2 shapeCasts_S2x16x2048x64_S32x2048x64 (ix3 ⟨16 * b.val + h.val, hs⟩ j d))
    = rowK (fun e => x0 (ix4 b h r e)) (fun j e => x1 (ix4 b h j e)) (fun j => x2 (ix4 b h j d))
  simp only [slab_apply]

/-- THE KERNEL'S RUN, READ: every weakly fair execution terminates with the result buffer at `GK` of the argument arrays
    and the arguments unchanged. -/
theorem run : θ_run defs (onTc (τ := τ) (main (F := Ideal))) ⟨m, fun _ => 0, ρ⟩ fun r => ∀ c : Dev nD,
      r.2.mem ((c.tc : Thread nD τ).loc main_v4) = GK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v4 (Pipeline.mem_restRefs_of main_v4 (by decide) (by decide))).trans
        ((tail_eq m c).trans (by rw [V_v0, V_v1, V_v2]; exact reshaped_eq_GK _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference program's result, read at an index, is the specification's function `GR`.

  The reference computes, for output element (b, h, r, d): the scores s_j = (Σ_e q_e · k_{j,e}) · (1 / √64) of query row
  (b, h, r, ·) against every key row (b, h, j, ·); their maximum m = max(−∞, fold max from −∞ over j of s_j); the
  weights w_j = exp (s_j − m); the normaliser n = 0 + Σ_j w_j; and the element Σ_j (w_j / n) · v_{j,d}. Each stage is
  identified below with the corresponding piece of the specification (`scoreR`, `maxR`, the summands of `rowR`),
  first at an index given by its coordinates, then assembled.
-/
import proofs.«430038_j22479858827414_3_alg».proof.Proof.Spec
import proofs.«430038_j22479858827414_3_alg».proof.Proof.Gen.ReferenceIdeal.Read
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Cert.Attn
open Idealize.ShloMosaic Idealize.ShloMosaic.ValueIdx

/-- The arguments' type: an array of extended reals over the indices of a [2, 16, 2048, 64] shape. -/
abbrev Arg := (⟨S2x16x2048x64, .f32⟩ : BufTy).Contents (Elt Ideal)

/-- The score stage at (b, h, r, j): query row (b, h, r, ·) contracted with key row (b, h, j, ·), then scaled by 1/√64. -/
theorem score_eq (x0 x1 : Arg) (b : Fin 2) (h : Fin 16) (r j : Fin 2048) :
    val_main_v4 (F := Ideal) x0 x1 (ix4 b h r j)
      = scoreR (fun e => x0 (ix4 b h r e)) (fun e => x1 (ix4 b h j e)) := by
  have hl : ∀ k : Fin 64, lidx_main_v2 (ix4 b h r j) k = ix4 b h r k := fun k =>
    funext fun a => by match a with | ⟨0, _⟩ => rfl | ⟨1, _⟩ => rfl | ⟨2, _⟩ => rfl | ⟨3, _⟩ => rfl
  have hr : ∀ k : Fin 64, ridx_main_v2 (ix4 b h r j) k = ix4 b h j k := fun k =>
    funext fun a => by match a with | ⟨0, _⟩ => rfl | ⟨1, _⟩ => rfl | ⟨2, _⟩ => rfl | ⟨3, _⟩ => rfl
  rw [val_main_v4_apply, val_main_v2_apply, val_main_v3_apply, val_main_v1_apply, val_main_cst_0_apply,
    val_main_v0_apply, val_main_cst_apply]
  simp only [hl, hr, Ideal.mulf_def, Ideal.hostDivf_def, Ideal.hostUnary_sqrt_def, Ideal.ofBits_def]
  rfl

/-- The maximum stage at (b, h, r): −∞ joined with the fold of max from −∞ over the 2048 scores of the row. -/
theorem max_eq (x0 x1 : Arg) (b : Fin 2) (h : Fin 16) (r : Fin 2048) :
    val_main_v7 (F := Ideal) x0 x1 (ix3 b h r)
      = maxR (fun e => x0 (ix4 b h r e)) (fun j e => x1 (ix4 b h j e)) := by
  have hR : S2x16x2048x2048.Reduces [3] S2x16x2048 := by decide
  have hlift : ∀ k : Fin 2048, hR.lift (ix3 b h r) k = ix4 b h r k := fun k =>
    funext fun a => Fin.ext (by match a with | ⟨0, _⟩ => rfl | ⟨1, _⟩ => rfl | ⟨2, _⟩ => rfl | ⟨3, _⟩ => rfl)
  rw [val_main_v7_apply, val_main_v6_apply, val_main_cst_2_apply]
  unfold val_main_v5
  rw [Host.reduce_eq_fold_single FloatOps.maximumf _ _ reducesTo_S2x16x2048x2048_S2x16x2048_d3 hR h_S_,
    val_main_cst_1_apply]
  unfold maxR
  simp only [Ideal.maximumf_def, Ideal.ofBits_def]
  refine congrArg (max negInf) ?_
  refine Finset.fold_congr fun (k : Fin 2048) _ => ?_
  show val_main_v4 (F := Ideal) x0 x1 (hR.lift (ix3 b h r) k) = _
  rw [hlift k, score_eq]

/-- The weight stage at (b, h, r, j): the exponential of the score less the row's maximum. -/
theorem weight_eq (x0 x1 : Arg) (b : Fin 2) (h : Fin 16) (r j : Fin 2048) :
    val_main_v11 (F := Ideal) x0 x1 (ix4 b h r j)
      = Ideal.exp (scoreR (fun e => x0 (ix4 b h r e)) (fun e => x1 (ix4 b h j e))
          - maxR (fun e => x0 (ix4 b h r e)) (fun j e => x1 (ix4 b h j e))) := by
  have hi : idx_main_v8 (idx_main_v9 (ix4 b h r j)) = ix3 b h r :=
    funext fun a => by match a with | ⟨0, _⟩ => rfl | ⟨1, _⟩ => rfl | ⟨2, _⟩ => rfl
  rw [val_main_v11_apply, val_main_v10_apply, val_main_v9_apply, val_main_v8_apply, hi, score_eq, max_eq]
  simp only [Ideal.hostUnary_exp_def, Ideal.subf_def]

/-- The normaliser at (b, h, r): zero plus the sum of the row's 2048 weights. -/
theorem norm_eq (x0 x1 : Arg) (b : Fin 2) (h : Fin 16) (r : Fin 2048) :
    val_main_v12 (F := Ideal) x0 x1 (ix3 b h r)
      = posZero + ∑ i : Fin 2048, Ideal.exp (scoreR (fun e => x0 (ix4 b h r e)) (fun e => x1 (ix4 b h i e))
          - maxR (fun e => x0 (ix4 b h r e)) (fun j e => x1 (ix4 b h j e))) := by
  have hi : ∀ k : Fin 2048, idx_main_v12 (ix3 b h r) k = ix4 b h r k := fun k =>
    funext fun a => by match a with | ⟨0, _⟩ => rfl | ⟨1, _⟩ => rfl | ⟨2, _⟩ => rfl | ⟨3, _⟩ => rfl
  rw [val_main_v12_apply, val_main_cst_3_apply]
  simp only [hi, weight_eq, Ideal.ofBits_def]

/-- The reference's result is `GR`: at (b, h, r, d), the sum over j of the normalised weight times value (b, h, j, d). -/
theorem val_eq_GR (x0 x1 x2 : (⟨Cert.ReferenceIdeal.S2x16x2048x64, .f32⟩ : BufTy).Contents (Elt Ideal)) :
    Cert.ReferenceIdeal.Read.val_main_v16 (F := Ideal) x0 x1 x2 = Cert.Attn.GR x0 x1 x2 := by
  funext i
  obtain ⟨b, h, r, d, rfl⟩ : ∃ (b : Fin 2) (h : Fin 16) (r : Fin 2048) (d : Fin 64), i = ix4 b h r d :=
    ⟨i 0, i 1, i 2, i 3, eq_ix4 i⟩
  have hl : ∀ k : Fin 2048, lidx_main_v16 (ix4 b h r d) k = ix4 b h r k := fun k =>
    funext fun a => by match a with | ⟨0, _⟩ => rfl | ⟨1, _⟩ => rfl | ⟨2, _⟩ => rfl | ⟨3, _⟩ => rfl
  have hr : ∀ k : Fin 2048, ridx_main_v16 (ix4 b h r d) k = ix4 b h k d := fun k =>
    funext fun a => by match a with | ⟨0, _⟩ => rfl | ⟨1, _⟩ => rfl | ⟨2, _⟩ => rfl | ⟨3, _⟩ => rfl
  have hn : ∀ k : Fin 2048, idx_main_v13 (idx_main_v14 (ix4 b h r k)) = ix3 b h r := fun k =>
    funext fun a => by match a with | ⟨0, _⟩ => rfl | ⟨1, _⟩ => rfl | ⟨2, _⟩ => rfl
  rw [val_main_v16_apply]
  show _ = rowR (qRow x0 (ix4 b h r d)) (kMat x1 (ix4 b h r d)) (vCol x2 (ix4 b h r d))
  unfold rowR
  refine Finset.sum_congr rfl fun k _ => ?_
  rw [val_main_v15_apply, val_main_v14_apply, val_main_v13_apply, hl k, hr k, hn k, weight_eq, norm_eq]
  rfl

end Cert.ReferenceIdeal.RefValue

end
-- ==== Proof.Law.lean ====
/-
  The one algebraic law of the certificate: on real entries the two arrangements of one attention output element
  — scale folded into the query or applied to the score, the quotient by the weights' sum taken last or first —
  are the same extended real.

  The road. Every entry is the coercion of a real, so
  * the four float patterns are the reals 1/8, −∞, 0 and 1/√64 = 1/8;
  * both scores of a key row are the coercion of ONE real, (Σ q·k)·(1/8);
  * the fold of `max` from −∞ over the (nonempty) family of coerced scores is again the coercion of a real `M`: it is
    below +∞ because every score is, and at least one score, so it is neither infinity; joining it once more with −∞
    changes nothing;
  * each weight exp(s − M) is the coercion of a positive real, so the weights' sum is the coercion of a positive real
    `L`, and the quotient by it is the product with 1/L;
  * what is left is (Σ pⱼ vⱼ)·(1/L) = Σ (pⱼ·(1/L))·vⱼ on the reals.
-/
import proofs.«430038_j22479858827414_3_alg».proof.Proof.Spec
import Mathlib.Data.EReal.Inv
import Mathlib.Data.Finset.Fold
import Mathlib.Algebra.BigOperators.Ring.Finset
import Mathlib.Algebra.Order.BigOperators.Group.Finset
import Mathlib.Analysis.SpecialFunctions.Exp
import Mathlib.Analysis.SpecialFunctions.Pow.Real

noncomputable section

namespace Cert.Attn

open Idealize.ShloMosaic

/-! ### The constants -/

theorem eighth_eq : eighth = ((1 / 8 : ℝ) : EReal) := by
  simp [eighth, Ideal.ofBits, Ideal.ieee, -EReal.coe_mul]; norm_num

theorem negInf_eq : negInf = ⊥ := by
  simp [negInf, Ideal.ofBits, Ideal.ieee]

theorem posZero_eq : posZero = 0 := by
  simp [posZero, Ideal.ofBits, Ideal.ieee]

theorem ofBits_one : Ideal.ofBits .f32 0x3F800000#32 = ((1 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem sqrt_64 : Real.sqrt 64 = 8 := by
  have h : (64 : ℝ) = 8 ^ 2 := by norm_num
  rw [h, Real.sqrt_sq (by norm_num)]

theorem invSqrt64_eq : invSqrt64 = ((1 / 8 : ℝ) : EReal) := by
  unfold invSqrt64
  rw [ofBits_one, ofBits_64, Ideal.sqrt_coe, if_neg (by norm_num), sqrt_64,
    Ideal.div_coe (by norm_num : (8 : ℝ) ≠ 0), ← EReal.coe_mul, one_mul]

/-! ### Coercion commutes with finite sums -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The two scores are one coerced real -/

theorem scoreK_coe (q k : Fin 64 → ℝ) :
    scoreK (fun e => (q e : EReal)) (fun e => (k e : EReal)) = (((∑ e, q e * k e) * (1 / 8) : ℝ) : EReal) := by
  unfold scoreK
  rw [eighth_eq]
  simp only [← EReal.coe_mul]
  rw [← coe_sum, Finset.sum_mul]
  congr 1
  exact Finset.sum_congr rfl fun e _ => by ring

theorem scoreR_coe (q k : Fin 64 → ℝ) :
    scoreR (fun e => (q e : EReal)) (fun e => (k e : EReal)) = (((∑ e, q e * k e) * (1 / 8) : ℝ) : EReal) := by
  unfold scoreR
  rw [invSqrt64_eq]
  simp only [← EReal.coe_mul]
  rw [← coe_sum, ← EReal.coe_mul]

/-! ### The maximum of a nonempty family of coerced reals is a coerced real -/

theorem fold_max_coe {ι : Type*} (s : Finset ι) (hs : s.Nonempty) (f : ι → ℝ) :
    ∃ M : ℝ, s.fold max (⊥ : EReal) (fun j => (f j : EReal)) = (M : EReal) := by
  refine ⟨(s.fold max (⊥ : EReal) (fun j => (f j : EReal))).toReal, (EReal.coe_toReal ?_ ?_).symm⟩
  · refine ne_of_lt ?_
    rw [Finset.fold_max_lt]
    exact ⟨bot_lt_top, fun x _ => EReal.coe_lt_top _⟩
  · obtain ⟨j, hj⟩ := hs
    refine ne_of_gt (lt_of_lt_of_le (EReal.bot_lt_coe (f j)) ?_)
    rw [Finset.le_fold_max]
    exact Or.inr ⟨j, hj, le_rfl⟩

/-! ### The law on real scores, a real maximum and real values -/

theorem row_law {ι : Type*} [Fintype ι] [Nonempty ι] (s : ι → ℝ) (M : ℝ) (v : ι → ℝ) :
    Ideal.div (∑ j, Ideal.exp ((s j : EReal) - (M : EReal)) * (v j : EReal))
        (∑ j, Ideal.exp ((s j : EReal) - (M : EReal)))
      = ∑ j, Ideal.div (Ideal.exp ((s j : EReal) - (M : EReal)))
          (0 + ∑ i, Ideal.exp ((s i : EReal) - (M : EReal))) * (v j : EReal) := by
  have hp : ∀ j, Ideal.exp ((s j : EReal) - (M : EReal)) = ((Real.exp (s j - M) : ℝ) : EReal) := by
    intro j
    rw [← EReal.coe_sub, Ideal.exp_coe]
  have hL : 0 < ∑ j, Real.exp (s j - M) :=
    Finset.sum_pos (fun j _ => Real.exp_pos _) Finset.univ_nonempty
  simp only [hp]
  rw [zero_add, ← coe_sum, Ideal.div_coe hL.ne']
  simp only [Ideal.div_coe hL.ne', ← EReal.coe_mul]
  rw [← coe_sum, ← coe_sum, ← EReal.coe_mul, Finset.sum_mul]
  congr 1
  exact Finset.sum_congr rfl fun j _ => by ring

/-! ### The theorem -/

theorem rowK_eq_rowR (q : Fin 64 → EReal) (k : Fin 2048 → Fin 64 → EReal) (v : Fin 2048 → EReal)
    (hq : ∀ e, ∃ r : ℝ, q e = (r : EReal)) (hk : ∀ j e, ∃ r : ℝ, k j e = (r : EReal))
    (hv : ∀ j, ∃ r : ℝ, v j = (r : EReal)) : rowK q k v = rowR q k v := by
  choose qr hqr using hq
  choose kr hkr using hk
  choose vr hvr using hv
  obtain rfl : q = fun e => (qr e : EReal) := funext hqr
  obtain rfl : k = fun j e => (kr j e : EReal) := funext fun j => funext (hkr j)
  obtain rfl : v = fun j => (vr j : EReal) := funext hvr
  have hK : ∀ j, scoreK (fun e => (qr e : EReal)) (fun e => (kr j e : EReal))
      = (((∑ e, qr e * kr j e) * (1 / 8) : ℝ) : EReal) := fun j => scoreK_coe _ _
  have hR : ∀ j, scoreR (fun e => (qr e : EReal)) (fun e => (kr j e : EReal))
      = (((∑ e, qr e * kr j e) * (1 / 8) : ℝ) : EReal) := fun j => scoreR_coe _ _
  obtain ⟨M, hM⟩ := fold_max_coe (Finset.univ : Finset (Fin 2048)) Finset.univ_nonempty
    (fun j => (∑ e, qr e * kr j e) * (1 / 8))
  have hmK : maxK (fun e => (qr e : EReal)) (fun j e => (kr j e : EReal)) = (M : EReal) := by
    unfold maxK
    rw [negInf_eq]
    simp only [hK]
    exact hM
  have hmR : maxR (fun e => (qr e : EReal)) (fun j e => (kr j e : EReal)) = (M : EReal) := by
    unfold maxR
    rw [negInf_eq]
    simp only [hR]
    rw [hM]
    exact max_eq_right bot_le
  unfold rowK rowR
  rw [hmK, hmR, posZero_eq]
  simp only [hK, hR]
  exact row_law _ M vr

end Cert.Attn

end
-- ==== Proof.Finite.lean ====
/-
  The precondition "every float input is finite", read back at the exact reading of floats.

  The printed predicate is, for each of the three argument arrays, the conjunction over every index of
  `|x i| < +∞`, and the three conjunctions are joined by `and`. At the exact reading a float is an extended
  real, `|a|` is `max a (-a)`, the comparison is the one of the linear order and the pattern `0x7F800000`
  denotes `⊤`. So the predicate being true says `max (x i) (-(x i)) < ⊤` at every index, that is
  `x i ≠ ⊤` and `x i ≠ ⊥`: every entry is a real number.
-/
import proofs.«430038_j22479858827414_3_alg».proof.Pre_finite_inputs
import Idealize.ShloMosaic.PureOps.Ideal
import Idealize.ShloMosaic.Lib.ReduceAll
import Idealize.ShloMosaic.Lib.ValueIdx

namespace Cert.Attn.Finite

open Idealize.ShloMosaic

/-- The f32 pattern of `+∞` denotes `⊤`. -/
theorem ofBits_inf : Ideal.ofBits .f32 0x7F800000#32 = (⊤ : EReal) := by
  simp [Ideal.ofBits, Ideal.ieee]

/-- One value: if `|a| < +∞` holds as a comparison word, `a` is a real number. -/
theorem real_of_abs_lt_top (a : EReal) (h : Ideal.cmp .olt (max a (-a)) (⊤ : EReal) = 1#1) :
    ∃ r : ℝ, a = (r : EReal) := by
  have hlt : max a (-a) < ⊤ := by
    unfold Ideal.cmp at h
    by_contra hn
    simp [hn] at h
  rw [max_lt_iff] at hlt
  have h1 : a ≠ ⊤ := ne_of_lt hlt.1
  have h2 : a ≠ ⊥ := by
    intro hb
    rw [hb] at hlt
    simp at hlt
  exact ⟨a.toReal, (EReal.coe_toReal h1 h2).symm⟩

/-- A rank-0 shape has one index. -/
instance : Subsingleton Cert.Pre_finite_inputs.S_.Idx := ⟨fun a b => funext fun d => d.elim0⟩

/-- One array: if the all-reduce by `and` of `|x| < +∞` is true, every entry of `x` is a real number. -/
theorem real_of_all [Cert.Pre_finite_inputs.Facts]
    (x : FVec Ideal Cert.Pre_finite_inputs.S2x16x2048x64 .f32)
    (init : IVec Cert.Pre_finite_inputs.S_ 1)
    (h : Host.reduce IntOp.andi
          (cmpf .olt (Host.absf x)
            (broadcastInDim Cert.Pre_finite_inputs.S2x16x2048x64 ![]
              Cert.Pre_finite_inputs.Facts.bcast_S_S2x16x2048x64
              (constant (F := Ideal) Cert.Pre_finite_inputs.S_ .f32 0x7F800000#32)))
          init Cert.Pre_finite_inputs.Facts.reducesTo_S2x16x2048x64_S_d0_1_2_3
          Cert.Pre_finite_inputs.Facts.h_S_ ValueIdx.ix0 = 1#1) :
    ∀ i, ∃ r : ℝ, x i = (r : EReal) := by
  intro i
  have hi := Host.reduce_andi_all _ _ _ _ _ h i
  apply real_of_abs_lt_top
  rw [← ofBits_inf]
  exact hi

theorem real_of_pre [Cert.Pre_finite_inputs.Facts]
    (x0 x1 x2 : FVec Ideal Cert.Pre_finite_inputs.S2x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  unfold Cert.Pre_finite_inputs.fn at h0
  dsimp only [andi] at h0
  obtain ⟨h01, h2⟩ := IntOp.andi_eq_one.1 h0
  obtain ⟨h0', h1⟩ := IntOp.andi_eq_one.1 h01
  exact ⟨real_of_all x0 _ h0', real_of_all x1 _ h1, real_of_all x2 _ h2⟩

end Cert.Attn.Finite
-- ==== Proof.lean ====
/-
  Scaled dot-product attention, the kernel against the jnp reference, over the extended reals.

  Both programs take queries, keys and values of shape [2, 16, 2048, 64] and return, at (b, h, r, d),
      Σⱼ softmaxⱼ( ⟨q(b,h,r,·), k(b,h,j,·)⟩ / 8 ) · v(b,h,j,d).
  They differ in three arrangements, none of which changes the value when every input is a real number:
    * the kernel multiplies the query by 1/8 before the contraction, the reference multiplies the score by 1/√64 after
      it — the same real number, and a factor moves across a finite sum of reals;
    * the reference joins the row maximum once more with −∞, which changes nothing;
    * the kernel contracts the unnormalised weights with the values and divides by the weights' sum at the end, the
      reference divides each weight first — the sum is a positive real (each weight is an exponential), so the quotient
      distributes over the finite sum.
  Finiteness of the inputs is what the precondition gives (Proof/Finite.lean) and what the law uses (Proof/Law.lean);
  without it a product with an infinity would not distribute. The rest is reading: the kernel's result as the
  function `GK` of the arguments (Proof/KArray.lean, over KBlock, KChunk, KReduce, KMatmul) and the reference's result
  as `GR` (Proof/RefValue.lean), both stated in Proof/Spec.lean. The ideal pass rewrote nothing, so `preserves` is
  trivial; the kernels' frames are the generated ones, and the reference's frame is its run with the result dropped.
-/
import proofs.«430038_j22479858827414_3_alg».proof.Defs
import proofs.«430038_j22479858827414_3_alg».proof.Proof.Gen.Kernel
import proofs.«430038_j22479858827414_3_alg».proof.Proof.Gen.Kernel.Skeleton
import proofs.«430038_j22479858827414_3_alg».proof.Proof.Gen.Kernel.Launch
import proofs.«430038_j22479858827414_3_alg».proof.Proof.Gen.Kernel.Points
import proofs.«430038_j22479858827414_3_alg».proof.Proof.Gen.Kernel.Frame
import proofs.«430038_j22479858827414_3_alg».proof.Proof.Gen.KernelIdeal
import proofs.«430038_j22479858827414_3_alg».proof.Proof.Gen.KernelIdeal.Skeleton
import proofs.«430038_j22479858827414_3_alg».proof.Proof.Gen.KernelIdeal.Launch
import proofs.«430038_j22479858827414_3_alg».proof.Proof.Gen.KernelIdeal.Points
import proofs.«430038_j22479858827414_3_alg».proof.Proof.Gen.KernelIdeal.Frame
import proofs.«430038_j22479858827414_3_alg».proof.Proof.Gen.ReferenceIdeal
import proofs.«430038_j22479858827414_3_alg».proof.Proof.Gen.Pre_finite_inputs
import proofs.«430038_j22479858827414_3_alg».proof.Proof.Gen.ReferenceIdeal.Run
import proofs.«430038_j22479858827414_3_alg».proof.Proof.Gen.ReferenceIdeal.Read
import proofs.«430038_j22479858827414_3_alg».proof.Proof.KArray
import proofs.«430038_j22479858827414_3_alg».proof.Proof.RefValue
import proofs.«430038_j22479858827414_3_alg».proof.Proof.Law
import proofs.«430038_j22479858827414_3_alg».proof.Proof.Finite
import Idealize.ShloMosaic.Adequacy
import Idealize.ShloMosaic.Init

noncomputable section

namespace Cert.Proof

open Idealize.ShloMosaic Idealize.ShloMosaic.TcCoe Idealize.SL.Sem Cert.Attn

/-- With every entry of the three arguments a real number, the two arrangements are one function. -/
theorem GR_eq_GK (x0 x1 x2 : Attn.S4.Idx → EReal) (h0 : ∀ i, ∃ r : ℝ, x0 i = (r : EReal))
    (h1 : ∀ i, ∃ r : ℝ, x1 i = (r : EReal)) (h2 : ∀ i, ∃ r : ℝ, x2 i = (r : EReal)) : GR x0 x1 x2 = GK x0 x1 x2 := by
  funext i
  unfold GR GK
  exact (rowK_eq_rowR _ _ _ (fun e => h0 _) (fun j e => h1 _) (fun j => h2 _)).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel's result at `GK` of its arguments and the reference's at `GR` of arguments that agree
    with them; the precondition makes every entry real, and there the two are equal. -/
theorem algebraic : Cert.algebraic_KernelIdeal_ReferenceIdeal := by
  intro m ρ m' ρ' hpre hagree
  refine ⟨fun c => GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.val_eq_GR,
    (hagree c).1, (hagree c).2.1, (hagree c).2.2]
  obtain ⟨h0, h1, h2⟩ := Cert.Attn.Finite.real_of_pre _ _ _ (hpre c)
  exact GR_eq_GK _ _ _ h0 h1 h2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
